-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S8192x4096 : Shape := ⟨2, ![8192, 4096]⟩
abbrev S4096x2048 : Shape := ⟨2, ![4096, 2048]⟩
abbrev S4096x4096 : Shape := ⟨2, ![4096, 4096]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8192x4096 : S_.BroadcastsInDim S8192x4096 (![] : Fin 0 → Fin S8192x4096.rank)
  reducesTo_S8192x4096_S_d0_1 : S8192x4096.ReducesTo [0, 1] S_
  bcast_S_S4096x2048 : S_.BroadcastsInDim S4096x2048 (![] : Fin 0 → Fin S4096x2048.rank)
  reducesTo_S4096x2048_S_d0_1 : S4096x2048.ReducesTo [0, 1] S_
  bcast_S_S4096x4096 : S_.BroadcastsInDim S4096x4096 (![] : Fin 0 → Fin S4096x4096.rank)
  reducesTo_S4096x4096_S_d0_1 : S4096x4096.ReducesTo [0, 1] S_

variable [Facts]

def fn_part1 {F : FTy → Type} [FloatOps F] (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  main_v18

def fn {F : FTy → Type} [FloatOps F] (main_arg0 : FVec F S8192x2048 .f32) (main_arg1 : FVec F S8192x4096 .f32) (main_arg2 : FVec F S4096x2048 .f32) (main_arg3 : FVec F S4096x4096 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_v13 main_v16
-- ==== Kernel.lean ====
abbrev S8192x2048 : Shape := ⟨2, ![8192, 2048]⟩
abbrev S8192x4096 : Shape := ⟨2, ![8192, 4096]⟩
abbrev S4096x2048 : Shape := ⟨2, ![4096, 2048]⟩
abbrev S4096x4096 : Shape := ⟨2, ![4096, 4096]⟩
abbrev S256x2048 : Shape := ⟨2, ![256, 2048]⟩
abbrev S256x4096 : Shape := ⟨2, ![256, 4096]⟩
abbrev S256x256 : Shape := ⟨2, ![256, 256]⟩

abbrev nBuf : Space → Nat
  | .hbm => 5
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S8192x4096, .f32⟩
  | .hbm, ⟨2, _⟩ => ⟨S4096x2048, .f32⟩
  | .hbm, ⟨3, _⟩ => ⟨S4096x4096, .f32⟩
  | .hbm, ⟨4, _⟩ => ⟨S8192x4096, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x4096, .f32⟩
  | .local _ .vmem, ⟨5, _⟩ => ⟨S256x4096, .f32⟩
  | .local _ .vmem, ⟨6, _⟩ => ⟨S256x4096, .f32⟩
  | .local _ .vmem, ⟨7, _⟩ => ⟨S256x4096, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  inb_S256x2048_S256x2048_0_0 : ∀ a, (![0, 0] : Fin 2 → Nat) a + S256x2048.size a ≤ S256x2048.size a
  h_S256x2048 : 0 < S256x2048.numel
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  inb_S256x256_S256x256_0_0 : ∀ a, (![0, 0] : Fin 2 → Nat) a + S256x256.size a ≤ S256x256.size a
  h_S256x256 : 0 < S256x256.numel
  dot_S256x2048_S256x2048_S256x256_1_1_0_0_n_n_wf : DotDims.WF S256x2048 S256x2048 S256x256 [1] [1] [0] [0] [] []
  dot_S256x4096_S256x4096_S256x256_1_1_0_0_n_n_wf : DotDims.WF S256x4096 S256x4096 S256x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S8192x2048.size a
  hwx0_0 : ∀ i : grid0.Coords, EltTy.bits .f32 = 32 ∨ (Rect.block (s := S8192x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S4096x2048.size a
  hwx0_1 : ∀ i : grid0.Coords, EltTy.bits .f32 = 32 ∨ (Rect.block (s := S4096x2048) S256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S8192x4096.size a
  hwx0_2 : ∀ i : grid0.Coords, EltTy.bits .f32 = 32 ∨ (Rect.block (s := S8192x4096) S256x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S4096x4096.size a
  hwx0_3 : ∀ i : grid0.Coords, EltTy.bits .f32 = 32 ∨ (Rect.block (s := S4096x4096) S256x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S8192x4096.size a
  hwx0_4 : ∀ i : grid0.Coords, EltTy.bits .f32 = 32 ∨ (Rect.block (s := S8192x4096) S256x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S8192x4096.size a
  hwx0_5 : ∀ i : grid0.Coords, EltTy.bits .f32 = 32 ∨ (Rect.block (s := S8192x4096) S256x256.size (cc0_transform_5 i) (hinb0_5 i)).WholeWords (EltTy.packing .f32)

variable [Facts₀]

def dot_S256x2048_S256x2048_S256x256_1_1_0_0_n_n : DotDims S256x2048 S256x2048 S256x256 where
  lhsContracting := [1]
  rhsContracting := [1]
  lhsNonContracting := [0]
  rhsNonContracting := [0]
  lhsBatch := []
  rhsBatch := []
  wf := dot_S256x2048_S256x2048_S256x256_1_1_0_0_n_n_wf
def dot_S256x4096_S256x4096_S256x256_1_1_0_0_n_n : DotDims S256x4096 S256x4096 S256x256 where
  lhsContracting := [1]
  rhsContracting := [1]
  lhsNonContracting := [0]
  rhsNonContracting := [0]
  lhsBatch := []
  rhsBatch := []
  wf := dot_S256x4096_S256x4096_S256x256_1_1_0_0_n_n_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S256x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S256x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S8192x4096 : Shape := ⟨2, ![8192, 4096]⟩
abbrev S4096x2048 : Shape := ⟨2, ![4096, 2048]⟩
abbrev S4096x4096 : Shape := ⟨2, ![4096, 4096]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x4096, .f32⟩
  | .hbm, ⟨2, _⟩ => ⟨S4096x2048, .f32⟩
  | .hbm, ⟨3, _⟩ => ⟨S4096x4096, .f32⟩
  | .hbm, ⟨4, _⟩ => ⟨S8192x4096, .f32⟩
  | .hbm, ⟨5, _⟩ => ⟨S8192x4096, .f32⟩
  | .hbm, ⟨6, _⟩ => ⟨S_, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S8192x4096, .f32⟩
  | .hbm, ⟨11, _⟩ => ⟨S_, .f32⟩
  | .hbm, ⟨12, _⟩ => ⟨S8192x4096, .f32⟩
  | .hbm, ⟨13, _⟩ => ⟨S8192x4096, .f32⟩
  | .hbm, ⟨14, _⟩ => ⟨S8192x4096, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  bcast_S_S8192x4096 : S_.BroadcastsInDim S8192x4096 (![] : Fin 0 → Fin S8192x4096.rank)
  dot_S8192x2048_S4096x2048_S8192x4096_1_1_0_0_n_n_wf : DotDims.WF S8192x2048 S4096x2048 S8192x4096 [1] [1] [0] [0] [] []
  dot_S8192x4096_S4096x4096_S8192x4096_1_1_0_0_n_n_wf : DotDims.WF S8192x4096 S4096x4096 S8192x4096 [1] [1] [0] [0] [] []

variable [Facts₀]

def dot_S8192x2048_S4096x2048_S8192x4096_1_1_0_0_n_n : DotDims S8192x2048 S4096x2048 S8192x4096 where
  lhsContracting := [1]
  rhsContracting := [1]
  lhsNonContracting := [0]
  rhsNonContracting := [0]
  lhsBatch := []
  rhsBatch := []
  wf := dot_S8192x2048_S4096x2048_S8192x4096_1_1_0_0_n_n_wf
def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.LibSharedFrame.lean ====
/-
  The frame run of a one-region TensorCore program whose body carries a scratch buffer between grid
  points, for a pipeline whose INPUT windows may read one array through several windows.

  When two windows stage blocks of the same array, the array's buffer cannot be handed to each of
  them at the full share.  The launch instead takes, in place of "every window's array is held
  whole", an entailment `hsplit`: how the distinct buffers behind the windows' arrays, each whole at
  the region-entry contents, are dealt to the windows at the shares the proof data name.  Everything
  else is as for distinct arrays: the class invariant (the scoped rest and the generator register)
  is handed to the data's invariant before the first point and taken back after the last, every
  other unscoped buffer bypasses the region, and the conclusion is the frame post: every window's
  array at what the write-backs leave, every bypassing buffer at its region-entry contents.
-/
import Idealize.ShloMosaic.Lib.Pipeline.Frame

noncomputable section

namespace Idealize.ShloMosaic.Pipeline.Shared

open Idealize.SL
open Idealize.SL.BI (sProp bigSep)
open scoped Idealize.SL.BI
open Idealize.SL.BI.BIBase Idealize.SL.BI.Laws Idealize.SL.Sem Idealize.SL.ProofMode
open Idealize.SL.RA
open Idealize.ShloMosaic Idealize.ShloMosaic.TcCoe Idealize.ShloMosaic.Pipeline Idealize.ShloMosaic.Rounds

variable {nD : Nat} {τ : Topo} {sig : RefSig} {Val : EltTy → Type}
variable {Λ₀ : SL.Sem.Labels} {P : Type} [Fintype P] [DecidableEq P] [∀ e, Nonempty (Val e)]

/-- THE FRAME RUN with a tracking invariant, the windows' arrays not assumed distinct. -/
theorem θ_run_frame_track_shared (cfgs : P → Cfg sig Λ₀)
    (dats : (p : P) → (c : Dev nD) → Dat τ Val Unit ℕ (UR sig nD τ) ℕ (cfgs p) c) (p : P)
    (hcell : Function.Injective (cellOf (nD := nD) (τ := τ) cfgs))
    (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (Ix := Unit) (Name := ℕ) (U := UR sig nD τ) (Lvl := ℕ) (cfgs p).spec c (V c)
        : sProp (MT nD τ sig Unit Val ℕ (UR sig nD τ) ℕ)) ⊢ (dats p c).arrays ((dats p c).arrAt · 0))
    (hin : ∀ c, ΦA (cfgs p).spec c ⊢ (dats p c).Φ 0)
    (hout : ∀ c, (dats p c).Φ (Fin.last (cfgs p).N) ⊢ ΦA (cfgs p).spec c) :
    θ_run (Pipeline.defs (fun q => Cfg.toPCfg (Val := Val) (cfgs q)) defs₀) (onTc main) (s₀ m g) (FramePost cfgs dats p V) := by
  classical
  -- The launch: the pipeline's ghost state is the whole user algebra, the kernel has no semaphore and no
  -- prefetched table of its own; the buffers behind the windows' arrays are dealt to the windows by `hsplit`.
  refine Pipeline.θ_run_region_pf (fun q => (cfgs q).toPCfg (Val := Val)) (fun q => (cfgs q).toPCfg_adm) dats () hcell p hw
    (OwnSemFacts.none (cfgs p).spec) (PreFacts.none _) emb₁ defs₀ 𝒱₀ m g main hbody hne harr hstage howed
    (fun _ => BI.emp) (initOf (cells cfgs hcell) (launchToks cfgs hcell)) ?hu V hmain hsplit (fun _ k => k.elim0)
    (fun c => iprop(∃ r, prngReg c r)) (fun c => iprop(∃ r, prngReg c r))
    (fun c => unscopedRest (Ix := Unit) (Name := ℕ) (U := UR sig nD τ) (Lvl := ℕ) (cfgs p).spec c (V c))
    ?hX ?hin ?hout
    (fun c s => ∀ b ∈ restRefs sig (cfgs p).spec, s.mem ((c.tc : Thread nD τ).loc b) = V c b)
    ?hY ?hQ
  case hu =>
    -- owning the launch element of the user algebra is owning it through the whole-algebra embedding
    iintro Hu
    imodintro
    isplitl [Hu]
    · iapply (show (ownU _ : sProp (MT nD τ sig Unit Val ℕ (UR sig nD τ) ℕ))
          ⊢ BI.own (emb₁ (initOf (cells cfgs hcell) (launchToks cfgs hcell))) from .rfl)
      iexact Hu
    · rw [BI.bigSep_emp_const]; iempintro
  case hX =>
    -- of what the launch offers, the generator register goes to the invariant and the bypassing buffers wait
    intro c
    rw [unscopedRestP_none]
    iintro ⟨HU, -, -, -, Hp, -⟩
    imodintro
    isplitl [Hp]
    · iexists _; iexact Hp
    · iexact HU
  case hin =>
    -- the register and the scoped rest are the class invariant, which yields the data's at point 0
    intro c
    refine (show _ ⊢ ΦA (cfgs p).spec c from ?_).trans (hin c)
    unfold ΦA
    iintro ⟨Hp, -, Hr⟩
    isplitl [Hr] <;> iassumption
  case hout =>
    -- after the last point the data's invariant yields the class invariant back
    intro c
    refine (hout c).trans ?_
    rw [ownSems0_none]
    unfold ΦA
    iintro ⟨Hr, Hp⟩
    isplitl [Hp]
    · iexact Hp
    isplitr
    · iempintro
    · iexact Hr
  case hY =>
    -- every bypassing buffer is held whole at its region-entry contents, so the final memory holds them
    intro c s'
    iintro ⟨-, HU, HSI⟩
    unfold unscopedRest
    imodintro
    iapply (pointsTo_read_all (restRefs sig (cfgs p).spec) (fun b => (c.tc : Thread nD τ).loc b) (V c) s')
    isplitl [HU] <;> iassumption
  case hQ =>
    exact fun s h c => ⟨(h c).1, (h c).2.2⟩

end Idealize.ShloMosaic.Pipeline.Shared

end
-- ==== Proof.FrameK.lean ====
/-
  The run of the kernel program, and what it leaves in every array (the text is generic in the float instance).

  The program is one grid of 32 x 16 points.  Point (bi, rj) reads five blocks: rows [256 bi, 256 bi + 256) of the
  inputs (all 2048 columns), rows [256 rj, 256 rj + 256) of the input weights, the same row band of the previous
  state (all 4096 columns), rows [256 rj, 256 rj + 256) of the reservoir weights, and the 256 x 256 tile (bi, rj) of
  the previous state; it writes the 256 x 256 tile (bi, rj) of the result.  The previous state is read through two
  windows (the row band and the tile), so its buffer is dealt to them in two halves of its share: each window only
  ever reads it.

  Here: the arrays as the grid finds them, each window's block at a point, what the body leaves in the result's
  tile buffer as a function of the five blocks it loaded, the body's run, and the run of the whole program with
  every array named afterwards.  The arguments end unchanged because no window writes them.
-/
import proofs.«115431_j20993800143482_1_alg».proof.Proof.Gen.Kernel.Launch
import proofs.«115431_j20993800143482_1_alg».proof.Proof.Gen.Kernel.Skeleton
import proofs.«115431_j20993800143482_1_alg».proof.Proof.Gen.Kernel.Points
import proofs.«115431_j20993800143482_1_alg».proof.Proof.LibSharedFrame
import Idealize.ShloMosaic.Lib.Pipeline.FrameBody
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the grid finds them -/

/-- The program is the grid alone, so every buffer is as launched. -/
abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl

/-! ## The blocks -/

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's buffer holds its block at every point, whether the point fetched it or the block index
    stayed where it was: the body never writes an input's buffer.  One statement per input window. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The arguments end unchanged -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (V_main_arg0 m c))),
      ((h c).1 2).trans (((dats 0 c).arrAt_in 2 rfl _).trans ((hA c 2).trans (V_main_arg1 m c))),
      ((h c).1 1).trans (((dats 0 c).arrAt_in 1 rfl _).trans ((hA c 1).trans (V_main_arg2 m c))),
      ((h c).1 3).trans (((dats 0 c).arrAt_in 3 rfl _).trans ((hA c 3).trans (V_main_arg3 m c)))⟩) h

/-! ## What the body leaves in the result's tile buffer -/

abbrev rX : Rect S256x2048 := Rect.unit (s := S256x2048) ![0, 0] S256x2048.size inb_S256x2048_S256x2048_0_0
abbrev rS : Rect S256x4096 := Rect.unit (s := S256x4096) ![0, 0] S256x4096.size inb_S256x4096_S256x4096_0_0
abbrev rT : Rect S256x256 := Rect.unit (s := S256x256) ![0, 0] S256x256.size inb_S256x256_S256x256_0_0

/-- The tile buffer after the body: its one store, of the blend computed from the five loaded blocks. -/
def tileOut (x0 x1 : Vec F S256x2048 .f32) (x2 x3 : Vec F S256x4096 .f32) (x4 : Vec F S256x256 .f32) : Vec F S256x256 .f32 :=
  View.canon [⟨rT, k0_pay1 (View.ld x0 rX) (View.ld x1 rX) (View.ld x2 rS) (View.ld x3 rS) (View.ld x4 rT)⟩]

/-- The one store covers the whole tile buffer. -/
theorem tileCover (p0 : Vec F S256x256 .f32) (y : S256x256.Idx) :
    ∃ pc ∈ ([⟨rT, p0⟩] : List (View.Piece (Elt F) S256x256 .f32)), y ∈ pc.1.set :=
  View.cover_of_tiled [⟨rT, p0⟩] S256x256.size (by rfl) y

/-! ## The body's run -/

set_option maxHeartbeats 1000000 in
/-- On whole buffers, the five inputs' at contents `xW` and the tile's at anything, the body runs and leaves the
    inputs' as they were and the tile's at `tileOut` of them. -/
theorem sound_kernel (c : Dev nD) (E : Set ℕ) (i : grid0.Coords)
    (arg2 : Memref sig .tc .vmem S256x2048 .f32) (harg2 : arg2.IsWhole) (arg3 : Memref sig .tc .vmem S256x2048 .f32) (harg3 : arg3.IsWhole)
    (arg4 : Memref sig .tc .vmem S256x4096 .f32) (harg4 : arg4.IsWhole) (arg5 : Memref sig .tc .vmem S256x4096 .f32) (harg5 : arg5.IsWhole)
    (arg6 : Memref sig .tc .vmem S256x256 .f32) (harg6 : arg6.IsWhole) (arg7 : Memref sig .tc .vmem S256x256 .f32) (harg7 : arg7.IsWhole)
    (x0 x1 : Vec F S256x2048 .f32) (x2 x3 : Vec F S256x4096 .f32) (x4 : Vec F S256x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (tileOut x0 x1 x2 x3 x4)) -∗ K ⟨⟩))
      ⊢ wp frame (wpE (defs₀ (F := F)) Variants.none c none) E (cc0__lnn_kernel i arg2 harg2 arg3 harg3 arg4 harg4 arg5 harg5 arg6 harg6 arg7 harg7) K := by
  simp only [cc0__lnn_kernel_eq_skeleton]; unfold cc0__lnn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (tileCover _)

/-! ## The grid's proof data -/

/-- After the body at point `t` each input's buffer holds its block and the tile's holds `tileOut` of the five
    blocks.  The previous state's buffer is held in halves by its two windows; every other array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => tileOut (iblk m c 0 t) (iblk m c 1 t) (iblk m c 2 t) (iblk m c 3 t) (iblk m c 4 t)
  Φ _ := Pipeline.ΦA spec0 c
  q w := match w with
    | ⟨0, _⟩ => fullShare
    | ⟨1, _⟩ => fullShare
    | ⟨2, _⟩ => fullShare.left
    | ⟨3, _⟩ => fullShare
    | ⟨4, _⟩ => fullShare.right
    | ⟨5, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) :
    (dats m 0 c).after 5 t = tileOut (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before_in0_of m (dats m 0 c) (A_eq m c 0) (after0_0 m c) t d
theorem before0_1 (c : Dev nD) (t : Fin cfg0.N) (d) : (dats m 0 c).before 1 t d = iblk m c 1 t :=
  before_in1_of m (dats m 0 c) (A_eq m c 1) (after0_1 m c) t d
theorem before0_2 (c : Dev nD) (t : Fin cfg0.N) (d) : (dats m 0 c).before 2 t d = iblk m c 2 t :=
  before_in2_of m (dats m 0 c) (A_eq m c 2) (after0_2 m c) t d
theorem before0_3 (c : Dev nD) (t : Fin cfg0.N) (d) : (dats m 0 c).before 3 t d = iblk m c 3 t :=
  before_in3_of m (dats m 0 c) (A_eq m c 3) (after0_3 m c) t d
theorem before0_4 (c : Dev nD) (t : Fin cfg0.N) (d) : (dats m 0 c).before 4 t d = iblk m c 4 t :=
  before_in4_of m (dats m 0 c) (A_eq m c 4) (after0_4 m c) t d

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

/-! ## Dealing the arrays' buffers to the windows -/

/-- The five distinct buffers behind the six windows, each whole, are the six windows' arrays at their shares: the
    previous state's buffer is split in two halves of its share. -/
theorem hsplit (c : Dev nD) :
    (Pipeline.arrBufs (Ix := Unit) (Name := ℕ) (U := UR sig nD τ) (Lvl := ℕ) (cfgs 0).spec c (V m c) : sProp 𝕄)
      ⊢ (dats m 0 c).arrays ((dats m 0 c).arrAt · 0) := by
  have e : ∀ w : Fin cfg0.W, (((cfg0.win w).arr.view.loc (c.tc : Thread nD τ)) ↦[(cfg0.win w).arr.view.set]{(dats m 0 c).share w} (dats m 0 c).arrAt w 0 : sProp 𝕄)
      = (((c.tc : Thread nD τ).loc (Pipeline.arrRef spec0 w)) ↦{(dats m 0 c).share w} V m c (Pipeline.arrRef spec0 w)) := fun w => by
    rw [(arr_whole0 w).set_eq_univ]; rfl
  unfold Pipeline.arrBufs Dat.arrays
  rw [bigSep_W0, e 0, e 1, e 2, e 3, e 4, e 5,
    bigSep_eq_bigSepL_of_eq [main_arg0, main_arg2, main_arg1, main_arg3, main_v0] (by decide) (by decide)]
  show iprop((((c.tc : Thread nD τ).loc main_arg0) ↦{fullShare} V m c main_arg0) ∗ (((c.tc : Thread nD τ).loc main_arg2) ↦{fullShare} V m c main_arg2)
      ∗ (((c.tc : Thread nD τ).loc main_arg1) ↦{fullShare} V m c main_arg1) ∗ (((c.tc : Thread nD τ).loc main_arg3) ↦{fullShare} V m c main_arg3)
      ∗ (((c.tc : Thread nD τ).loc main_v0) ↦{fullShare} V m c main_v0)) ⊢ _
  iintro ⟨H0, H2, H1, H3, H5⟩
  ihave H1 := (pointsTo_share (PosShare.mem_left_op_right fullShare)).1 $$ H1
  icases H1 with ⟨H1l, H1r⟩
  isplitl [H0]; · iexact H0
  isplitl [H2]; · iexact H2
  isplitl [H1l]; · iexact H1l
  isplitl [H3]; · iexact H3
  isplitl [H1r]; · iexact H1r
  iexact H5

/-! ## The run -/

set_option backward.isDefEq.respectTransparency.types false in
/-- Every weakly fair execution of the program terminates, and afterwards every window's array holds what the
    write-backs left (an input: its launch contents) and every other buffer what it held. -/
theorem run_main : θ_run defs (onTc (τ := τ) (main (F := F))) (s₀ m ρ) (Pipeline.FramePost cfgs (dats m) 0 (V m)) :=
  Pipeline.Shared.θ_run_frame_track_shared cfgs (dats m) (0 : Fin 1) cellOf_inj winFacts₀0 block_pos0 arr_whole0 stage_whole0
    defs₀ Variants.none m ρ main
    (hbody := fun c => (body_obligation m c).loose) (howed := fun _ _ => rfl) (V := V m) (hmain := hmain m Variants.none)
    (hsplit := hsplit m) (hin := fun _ => .rfl) (hout := fun _ => .rfl)

/-- The arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Frame

end
-- ==== Proof.FrameKI.lean ====
/-
  The run of the kernel program, and what it leaves in every array (the text is generic in the float instance).

  The program is one grid of 32 x 16 points.  Point (bi, rj) reads five blocks: rows [256 bi, 256 bi + 256) of the
  inputs (all 2048 columns), rows [256 rj, 256 rj + 256) of the input weights, the same row band of the previous
  state (all 4096 columns), rows [256 rj, 256 rj + 256) of the reservoir weights, and the 256 x 256 tile (bi, rj) of
  the previous state; it writes the 256 x 256 tile (bi, rj) of the result.  The previous state is read through two
  windows (the row band and the tile), so its buffer is dealt to them in two halves of its share: each window only
  ever reads it.

  Here: the arrays as the grid finds them, each window's block at a point, what the body leaves in the result's
  tile buffer as a function of the five blocks it loaded, the body's run, and the run of the whole program with
  every array named afterwards.  The arguments end unchanged because no window writes them.
-/
import proofs.«115431_j20993800143482_1_alg».proof.Proof.Gen.KernelIdeal.Launch
import proofs.«115431_j20993800143482_1_alg».proof.Proof.Gen.KernelIdeal.Skeleton
import proofs.«115431_j20993800143482_1_alg».proof.Proof.Gen.KernelIdeal.Points
import proofs.«115431_j20993800143482_1_alg».proof.Proof.LibSharedFrame
import Idealize.ShloMosaic.Lib.Pipeline.FrameBody
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the grid finds them -/

/-- The program is the grid alone, so every buffer is as launched. -/
abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl

/-! ## The blocks -/

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's buffer holds its block at every point, whether the point fetched it or the block index
    stayed where it was: the body never writes an input's buffer.  One statement per input window. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The arguments end unchanged -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (V_main_arg0 m c))),
      ((h c).1 2).trans (((dats 0 c).arrAt_in 2 rfl _).trans ((hA c 2).trans (V_main_arg1 m c))),
      ((h c).1 1).trans (((dats 0 c).arrAt_in 1 rfl _).trans ((hA c 1).trans (V_main_arg2 m c))),
      ((h c).1 3).trans (((dats 0 c).arrAt_in 3 rfl _).trans ((hA c 3).trans (V_main_arg3 m c)))⟩) h

/-! ## What the body leaves in the result's tile buffer -/

abbrev rX : Rect S256x2048 := Rect.unit (s := S256x2048) ![0, 0] S256x2048.size inb_S256x2048_S256x2048_0_0
abbrev rS : Rect S256x4096 := Rect.unit (s := S256x4096) ![0, 0] S256x4096.size inb_S256x4096_S256x4096_0_0
abbrev rT : Rect S256x256 := Rect.unit (s := S256x256) ![0, 0] S256x256.size inb_S256x256_S256x256_0_0

/-- The tile buffer after the body: its one store, of the blend computed from the five loaded blocks. -/
def tileOut (x0 x1 : Vec F S256x2048 .f32) (x2 x3 : Vec F S256x4096 .f32) (x4 : Vec F S256x256 .f32) : Vec F S256x256 .f32 :=
  View.canon [⟨rT, k0_pay1 (View.ld x0 rX) (View.ld x1 rX) (View.ld x2 rS) (View.ld x3 rS) (View.ld x4 rT)⟩]

/-- The one store covers the whole tile buffer. -/
theorem tileCover (p0 : Vec F S256x256 .f32) (y : S256x256.Idx) :
    ∃ pc ∈ ([⟨rT, p0⟩] : List (View.Piece (Elt F) S256x256 .f32)), y ∈ pc.1.set :=
  View.cover_of_tiled [⟨rT, p0⟩] S256x256.size (by rfl) y

/-! ## The body's run -/

set_option maxHeartbeats 1000000 in
/-- On whole buffers, the five inputs' at contents `xW` and the tile's at anything, the body runs and leaves the
    inputs' as they were and the tile's at `tileOut` of them. -/
theorem sound_kernel (c : Dev nD) (E : Set ℕ) (i : grid0.Coords)
    (arg2 : Memref sig .tc .vmem S256x2048 .f32) (harg2 : arg2.IsWhole) (arg3 : Memref sig .tc .vmem S256x2048 .f32) (harg3 : arg3.IsWhole)
    (arg4 : Memref sig .tc .vmem S256x4096 .f32) (harg4 : arg4.IsWhole) (arg5 : Memref sig .tc .vmem S256x4096 .f32) (harg5 : arg5.IsWhole)
    (arg6 : Memref sig .tc .vmem S256x256 .f32) (harg6 : arg6.IsWhole) (arg7 : Memref sig .tc .vmem S256x256 .f32) (harg7 : arg7.IsWhole)
    (x0 x1 : Vec F S256x2048 .f32) (x2 x3 : Vec F S256x4096 .f32) (x4 : Vec F S256x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (tileOut x0 x1 x2 x3 x4)) -∗ K ⟨⟩))
      ⊢ wp frame (wpE (defs₀ (F := F)) Variants.none c none) E (cc0__lnn_kernel i arg2 harg2 arg3 harg3 arg4 harg4 arg5 harg5 arg6 harg6 arg7 harg7) K := by
  simp only [cc0__lnn_kernel_eq_skeleton]; unfold cc0__lnn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (tileCover _)

/-! ## The grid's proof data -/

/-- After the body at point `t` each input's buffer holds its block and the tile's holds `tileOut` of the five
    blocks.  The previous state's buffer is held in halves by its two windows; every other array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => tileOut (iblk m c 0 t) (iblk m c 1 t) (iblk m c 2 t) (iblk m c 3 t) (iblk m c 4 t)
  Φ _ := Pipeline.ΦA spec0 c
  q w := match w with
    | ⟨0, _⟩ => fullShare
    | ⟨1, _⟩ => fullShare
    | ⟨2, _⟩ => fullShare.left
    | ⟨3, _⟩ => fullShare
    | ⟨4, _⟩ => fullShare.right
    | ⟨5, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) :
    (dats m 0 c).after 5 t = tileOut (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before_in0_of m (dats m 0 c) (A_eq m c 0) (after0_0 m c) t d
theorem before0_1 (c : Dev nD) (t : Fin cfg0.N) (d) : (dats m 0 c).before 1 t d = iblk m c 1 t :=
  before_in1_of m (dats m 0 c) (A_eq m c 1) (after0_1 m c) t d
theorem before0_2 (c : Dev nD) (t : Fin cfg0.N) (d) : (dats m 0 c).before 2 t d = iblk m c 2 t :=
  before_in2_of m (dats m 0 c) (A_eq m c 2) (after0_2 m c) t d
theorem before0_3 (c : Dev nD) (t : Fin cfg0.N) (d) : (dats m 0 c).before 3 t d = iblk m c 3 t :=
  before_in3_of m (dats m 0 c) (A_eq m c 3) (after0_3 m c) t d
theorem before0_4 (c : Dev nD) (t : Fin cfg0.N) (d) : (dats m 0 c).before 4 t d = iblk m c 4 t :=
  before_in4_of m (dats m 0 c) (A_eq m c 4) (after0_4 m c) t d

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

/-! ## Dealing the arrays' buffers to the windows -/

/-- The five distinct buffers behind the six windows, each whole, are the six windows' arrays at their shares: the
    previous state's buffer is split in two halves of its share. -/
theorem hsplit (c : Dev nD) :
    (Pipeline.arrBufs (Ix := Unit) (Name := ℕ) (U := UR sig nD τ) (Lvl := ℕ) (cfgs 0).spec c (V m c) : sProp 𝕄)
      ⊢ (dats m 0 c).arrays ((dats m 0 c).arrAt · 0) := by
  have e : ∀ w : Fin cfg0.W, (((cfg0.win w).arr.view.loc (c.tc : Thread nD τ)) ↦[(cfg0.win w).arr.view.set]{(dats m 0 c).share w} (dats m 0 c).arrAt w 0 : sProp 𝕄)
      = (((c.tc : Thread nD τ).loc (Pipeline.arrRef spec0 w)) ↦{(dats m 0 c).share w} V m c (Pipeline.arrRef spec0 w)) := fun w => by
    rw [(arr_whole0 w).set_eq_univ]; rfl
  unfold Pipeline.arrBufs Dat.arrays
  rw [bigSep_W0, e 0, e 1, e 2, e 3, e 4, e 5,
    bigSep_eq_bigSepL_of_eq [main_arg0, main_arg2, main_arg1, main_arg3, main_v0] (by decide) (by decide)]
  show iprop((((c.tc : Thread nD τ).loc main_arg0) ↦{fullShare} V m c main_arg0) ∗ (((c.tc : Thread nD τ).loc main_arg2) ↦{fullShare} V m c main_arg2)
      ∗ (((c.tc : Thread nD τ).loc main_arg1) ↦{fullShare} V m c main_arg1) ∗ (((c.tc : Thread nD τ).loc main_arg3) ↦{fullShare} V m c main_arg3)
      ∗ (((c.tc : Thread nD τ).loc main_v0) ↦{fullShare} V m c main_v0)) ⊢ _
  iintro ⟨H0, H2, H1, H3, H5⟩
  ihave H1 := (pointsTo_share (PosShare.mem_left_op_right fullShare)).1 $$ H1
  icases H1 with ⟨H1l, H1r⟩
  isplitl [H0]; · iexact H0
  isplitl [H2]; · iexact H2
  isplitl [H1l]; · iexact H1l
  isplitl [H3]; · iexact H3
  isplitl [H1r]; · iexact H1r
  iexact H5

/-! ## The run -/

set_option backward.isDefEq.respectTransparency.types false in
/-- Every weakly fair execution of the program terminates, and afterwards every window's array holds what the
    write-backs left (an input: its launch contents) and every other buffer what it held. -/
theorem run_main : θ_run defs (onTc (τ := τ) (main (F := F))) (s₀ m ρ) (Pipeline.FramePost cfgs (dats m) 0 (V m)) :=
  Pipeline.Shared.θ_run_frame_track_shared cfgs (dats m) (0 : Fin 1) cellOf_inj winFacts₀0 block_pos0 arr_whole0 stage_whole0
    defs₀ Variants.none m ρ main
    (hbody := fun c => (body_obligation m c).loose) (howed := fun _ _ => rfl) (V := V m) (hmain := hmain m Variants.none)
    (hsplit := hsplit m) (hin := fun _ => .rfl) (hout := fun _ => .rfl)

/-- The arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Frame

end
-- ==== Proof.TileValue.lean ====
/-
  What the body stores at one element of a tile, on the extended reals.

  Both matrix products contract the last axis of both operands into a zero accumulator, so at row p and column q of
  the tile each is the plain sum over k of (left block)(p, k) * (right block)(q, k); the change of format before
  them is the identity.  The stored value at (p, q) is then
      c7 * (state tile)(p, q) + c3 * tanh( sum_k X(p, k) A(q, k) + sum_k S(p, k) W(q, k) ).
-/
import proofs.«115431_j20993800143482_1_alg».proof.Proof.Gen.KernelIdeal.Skeleton
import Idealize.ShloMosaic.Lib.ValueIdx
import Idealize.ShloMosaic.PureOps.Ideal.Laws

noncomputable section

namespace Cert.KernelIdeal.Tile

open Cert.KernelIdeal Cert.KernelIdeal.Gen Idealize.ShloMosaic Idealize.ShloMosaic.ValueIdx

/-! ## The operand indices of the two products, axis by axis -/

theorem lhsX_0 (i : S256x256.Idx) (q : dot_S256x2048_S256x2048_S256x256_1_1_0_0_n_n.contr.Idx) :
    (dot_S256x2048_S256x2048_S256x256_1_1_0_0_n_n.lhsIdx i q 0).val = (i 0).val := by
  unfold DotDims.lhsIdx
  rw [dif_neg (show ¬(0 : Fin S256x2048.rank) ∈ dot_S256x2048_S256x2048_S256x256_1_1_0_0_n_n.lhsBatch by decide), dif_pos (show (0 : Fin S256x2048.rank) ∈ dot_S256x2048_S256x2048_S256x256_1_1_0_0_n_n.lhsNonContracting by decide)]
  rfl
theorem lhsX_1 (i : S256x256.Idx) (q : dot_S256x2048_S256x2048_S256x256_1_1_0_0_n_n.contr.Idx) :
    (dot_S256x2048_S256x2048_S256x256_1_1_0_0_n_n.lhsIdx i q 1).val = (q ⟨0, by decide⟩).val :=
  dot_S256x2048_S256x2048_S256x256_1_1_0_0_n_n.lhsIdx_val_of_single rfl i q
theorem rhsX_0 (i : S256x256.Idx) (q : dot_S256x2048_S256x2048_S256x256_1_1_0_0_n_n.contr.Idx) :
    (dot_S256x2048_S256x2048_S256x256_1_1_0_0_n_n.rhsIdx i q 0).val = (i 1).val := by
  unfold DotDims.rhsIdx
  rw [dif_neg (show ¬(0 : Fin S256x2048.rank) ∈ dot_S256x2048_S256x2048_S256x256_1_1_0_0_n_n.rhsBatch by decide), dif_pos (show (0 : Fin S256x2048.rank) ∈ dot_S256x2048_S256x2048_S256x256_1_1_0_0_n_n.rhsNonContracting by decide)]
  rfl
theorem rhsX_1 (i : S256x256.Idx) (q : dot_S256x2048_S256x2048_S256x256_1_1_0_0_n_n.contr.Idx) :
    (dot_S256x2048_S256x2048_S256x256_1_1_0_0_n_n.rhsIdx i q 1).val = (q ⟨0, by decide⟩).val :=
  dot_S256x2048_S256x2048_S256x256_1_1_0_0_n_n.rhsIdx_val_of_single rfl i q

theorem lhsS_0 (i : S256x256.Idx) (q : dot_S256x4096_S256x4096_S256x256_1_1_0_0_n_n.contr.Idx) :
    (dot_S256x4096_S256x4096_S256x256_1_1_0_0_n_n.lhsIdx i q 0).val = (i 0).val := by
  unfold DotDims.lhsIdx
  rw [dif_neg (show ¬(0 : Fin S256x4096.rank) ∈ dot_S256x4096_S256x4096_S256x256_1_1_0_0_n_n.lhsBatch by decide), dif_pos (show (0 : Fin S256x4096.rank) ∈ dot_S256x4096_S256x4096_S256x256_1_1_0_0_n_n.lhsNonContracting by decide)]
  rfl
theorem lhsS_1 (i : S256x256.Idx) (q : dot_S256x4096_S256x4096_S256x256_1_1_0_0_n_n.contr.Idx) :
    (dot_S256x4096_S256x4096_S256x256_1_1_0_0_n_n.lhsIdx i q 1).val = (q ⟨0, by decide⟩).val :=
  dot_S256x4096_S256x4096_S256x256_1_1_0_0_n_n.lhsIdx_val_of_single rfl i q
theorem rhsS_0 (i : S256x256.Idx) (q : dot_S256x4096_S256x4096_S256x256_1_1_0_0_n_n.contr.Idx) :
    (dot_S256x4096_S256x4096_S256x256_1_1_0_0_n_n.rhsIdx i q 0).val = (i 1).val := by
  unfold DotDims.rhsIdx
  rw [dif_neg (show ¬(0 : Fin S256x4096.rank) ∈ dot_S256x4096_S256x4096_S256x256_1_1_0_0_n_n.rhsBatch by decide), dif_pos (show (0 : Fin S256x4096.rank) ∈ dot_S256x4096_S256x4096_S256x256_1_1_0_0_n_n.rhsNonContracting by decide)]
  rfl
theorem rhsS_1 (i : S256x256.Idx) (q : dot_S256x4096_S256x4096_S256x256_1_1_0_0_n_n.contr.Idx) :
    (dot_S256x4096_S256x4096_S256x256_1_1_0_0_n_n.rhsIdx i q 1).val = (q ⟨0, by decide⟩).val :=
  dot_S256x4096_S256x4096_S256x256_1_1_0_0_n_n.rhsIdx_val_of_single rfl i q

/-! ## The products at an element -/

/-- The product over the 2048 input features, at (p, q): the sum over k of l(p, k) r(q, k). -/
theorem matmulX_apply (l r : FVec Ideal S256x2048 .bf16) (p q : Fin 256) :
    matmul dot_S256x2048_S256x2048_S256x256_1_1_0_0_n_n none l r (constant S256x256 .f32 0x00000000#32) (ix2 p q)
      = ∑ k : Fin 2048, l (ix2 p k) * r (ix2 q k) := by
  simp only [matmul]
  rw [Ideal.matmul_constant_zero_apply, ← Equiv.sum_comp (ValueIdx.contrEquiv1 dot_S256x2048_S256x2048_S256x256_1_1_0_0_n_n 2048 rfl rfl).symm]
  refine Finset.sum_congr rfl fun k _ => ?_
  have hk := ValueIdx.contrEquiv1_symm_val dot_S256x2048_S256x2048_S256x256_1_1_0_0_n_n 2048 rfl rfl k
  have el : dot_S256x2048_S256x2048_S256x256_1_1_0_0_n_n.lhsIdx (ix2 p q) ((ValueIdx.contrEquiv1 dot_S256x2048_S256x2048_S256x256_1_1_0_0_n_n 2048 rfl rfl).symm k) = ix2 p k := funext fun a => Fin.ext (by
    match a with
    | ⟨0, _⟩ => exact lhsX_0 _ _
    | ⟨1, _⟩ => exact (lhsX_1 _ _).trans hk)
  have er : dot_S256x2048_S256x2048_S256x256_1_1_0_0_n_n.rhsIdx (ix2 p q) ((ValueIdx.contrEquiv1 dot_S256x2048_S256x2048_S256x256_1_1_0_0_n_n 2048 rfl rfl).symm k) = ix2 q k := funext fun a => Fin.ext (by
    match a with
    | ⟨0, _⟩ => exact rhsX_0 _ _
    | ⟨1, _⟩ => exact (rhsX_1 _ _).trans hk)
  rw [el, er]

/-- The product over the 4096 state units, at (p, q): the sum over k of l(p, k) r(q, k). -/
theorem matmulS_apply (l r : FVec Ideal S256x4096 .bf16) (p q : Fin 256) :
    matmul dot_S256x4096_S256x4096_S256x256_1_1_0_0_n_n none l r (constant S256x256 .f32 0x00000000#32) (ix2 p q)
      = ∑ k : Fin 4096, l (ix2 p k) * r (ix2 q k) := by
  simp only [matmul]
  rw [Ideal.matmul_constant_zero_apply, ← Equiv.sum_comp (ValueIdx.contrEquiv1 dot_S256x4096_S256x4096_S256x256_1_1_0_0_n_n 4096 rfl rfl).symm]
  refine Finset.sum_congr rfl fun k _ => ?_
  have hk := ValueIdx.contrEquiv1_symm_val dot_S256x4096_S256x4096_S256x256_1_1_0_0_n_n 4096 rfl rfl k
  have el : dot_S256x4096_S256x4096_S256x256_1_1_0_0_n_n.lhsIdx (ix2 p q) ((ValueIdx.contrEquiv1 dot_S256x4096_S256x4096_S256x256_1_1_0_0_n_n 4096 rfl rfl).symm k) = ix2 p k := funext fun a => Fin.ext (by
    match a with
    | ⟨0, _⟩ => exact lhsS_0 _ _
    | ⟨1, _⟩ => exact (lhsS_1 _ _).trans hk)
  have er : dot_S256x4096_S256x4096_S256x256_1_1_0_0_n_n.rhsIdx (ix2 p q) ((ValueIdx.contrEquiv1 dot_S256x4096_S256x4096_S256x256_1_1_0_0_n_n 4096 rfl rfl).symm k) = ix2 q k := funext fun a => Fin.ext (by
    match a with
    | ⟨0, _⟩ => exact rhsS_0 _ _
    | ⟨1, _⟩ => exact (rhsS_1 _ _).trans hk)
  rw [el, er]

/-! ## The stored value at an element -/

theorem pay_at (x0 x1 : Vec Ideal S256x2048 .f32) (x2 x3 : Vec Ideal S256x4096 .f32) (x4 : Vec Ideal S256x256 .f32) (p q : Fin 256) :
    k0_pay1 (F := Ideal) x0 x1 x2 x3 x4 (ix2 p q)
      = Ideal.ofBits .f32 0x3F333333#32 * x4 (ix2 p q)
        + Ideal.ofBits .f32 0x3E99999A#32
          * Ideal.tanh ((∑ k : Fin 2048, x0 (ix2 p k) * x1 (ix2 q k)) + ∑ k : Fin 4096, x2 (ix2 p k) * x3 (ix2 q k)) := by
  unfold k0_pay1
  have hX := matmulX_apply (truncf .bf16 x0 bitsLt_bf16_f32) (truncf .bf16 x1 bitsLt_bf16_f32) p q
  have hS := matmulS_apply (truncf .bf16 x2 bitsLt_bf16_f32) (truncf .bf16 x3 bitsLt_bf16_f32) p q
  show Ideal.ofBits .f32 0x3F333333#32 * x4 (ix2 p q)
      + Ideal.ofBits .f32 0x3E99999A#32
        * Ideal.tanh (matmul (F := Ideal) dot_S256x2048_S256x2048_S256x256_1_1_0_0_n_n none (truncf .bf16 x0 bitsLt_bf16_f32) (truncf .bf16 x1 bitsLt_bf16_f32) (constant S256x256 .f32 0x00000000#32) (ix2 p q)
            + matmul (F := Ideal) dot_S256x4096_S256x4096_S256x256_1_1_0_0_n_n none (truncf .bf16 x2 bitsLt_bf16_f32) (truncf .bf16 x3 bitsLt_bf16_f32) (constant S256x256 .f32 0x00000000#32) (ix2 p q)) = _
  rw [hX, hS]
  rfl

end Cert.KernelIdeal.Tile

end
-- ==== Proof.Blend.lean ====
/-
  The function both programs compute, index by index, on the extended reals.

  For inputs x [8192, 2048], previous state s [8192, 4096], input weights a [4096, 2048] and reservoir weights
  w [4096, 4096], the new state at (b, r) is

      c7 * s(b, r) + c3 * tanh( sum_i x(b, i) a(r, i)  +  sum_q s(b, q) w(r, q) ),

  with c7 and c3 the two binary32 constants both programs print (the patterns of 0.7 and 0.3 rounded).  The same two
  patterns stand on both sides, so their values are never needed.
-/
import Idealize.ShloMosaic.PureOps.Ideal
import Idealize.ShloMosaic.Lib.ValueIdx

noncomputable section

namespace Cert.Blend

open Idealize.ShloMosaic Idealize.ShloMosaic.ValueIdx

/-- The new state at row `b` and unit `r`. -/
def stateAt (x : (⟨2, ![8192, 2048]⟩ : Shape).Idx → EReal) (s : (⟨2, ![8192, 4096]⟩ : Shape).Idx → EReal)
    (a : (⟨2, ![4096, 2048]⟩ : Shape).Idx → EReal) (w : (⟨2, ![4096, 4096]⟩ : Shape).Idx → EReal)
    (b : Fin 8192) (r : Fin 4096) : EReal :=
  Ideal.ofBits .f32 0x3F333333#32 * s (ix2 b r)
    + Ideal.ofBits .f32 0x3E99999A#32
      * Ideal.tanh ((∑ i : Fin 2048, x (ix2 b i) * a (ix2 r i)) + ∑ q : Fin 4096, s (ix2 b q) * w (ix2 r q))

/-- The new state as an array. -/
def state (x : (⟨2, ![8192, 2048]⟩ : Shape).Idx → EReal) (s : (⟨2, ![8192, 4096]⟩ : Shape).Idx → EReal)
    (a : (⟨2, ![4096, 2048]⟩ : Shape).Idx → EReal) (w : (⟨2, ![4096, 4096]⟩ : Shape).Idx → EReal) :
    (⟨2, ![8192, 4096]⟩ : Shape).Idx → EReal :=
  fun j => stateAt x s a w (j 0) (j 1)

theorem state_apply (x : (⟨2, ![8192, 2048]⟩ : Shape).Idx → EReal) (s : (⟨2, ![8192, 4096]⟩ : Shape).Idx → EReal)
    (a : (⟨2, ![4096, 2048]⟩ : Shape).Idx → EReal) (w : (⟨2, ![4096, 4096]⟩ : Shape).Idx → EReal)
    (b : Fin 8192) (r : Fin 4096) : state x s a w (ix2 b r) = stateAt x s a w b r := rfl

end Cert.Blend

end
-- ==== Proof.KernelFinal.lean ====
/-
  The idealized kernel program's result array is the blended state.

  Point t of the 32 x 16 grid is (t / 16, t % 16).  Its five input blocks are the row bands and the tile named by these
  two numbers, so an element (p, q) of the tile it writes back is the blended state at row 256 (t / 16) + p and unit
  256 (t % 16) + q: the row band of the inputs and of the previous state supply x(b, .) and s(b, .), the row bands of
  the two weight matrices supply a(r, .) and w(r, .), the tile of the previous state supplies s(b, r).  The 512 tiles
  cover the array, so after the run the array is the blended state of the four arguments.
-/
import proofs.«115431_j20993800143482_1_alg».proof.Proof.FrameKI
import proofs.«115431_j20993800143482_1_alg».proof.Proof.TileValue
import proofs.«115431_j20993800143482_1_alg».proof.Proof.Blend
import Idealize.ShloMosaic.Lib.Pipeline.Value

set_option maxRecDepth 16384

noncomputable section

namespace Cert.KernelIdeal.Final

open Cert.KernelIdeal Cert.KernelIdeal.Gen Cert.KernelIdeal.Frame Cert.KernelIdeal.Tile
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The block indices at point t: the row bands follow t / 16 or t % 16 and span all columns; the two tiles are
    (t / 16, t % 16). -/
theorem idx_facts : ∀ t : Fin cfg0.N,
    win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = t.val / 16 ∧ win0_2.index t (1 : Fin 2) = 0
    ∧ win0_3.index t (0 : Fin 2) = t.val % 16 ∧ win0_3.index t (1 : Fin 2) = 0
    ∧ win0_4.index t (0 : Fin 2) = t.val / 16 ∧ win0_4.index t (1 : Fin 2) = t.val % 16
    ∧ win0_5.index t (0 : Fin 2) = t.val / 16 ∧ win0_5.index t (1 : Fin 2) = t.val % 16 :=
  (by decide +kernel : ∀ t : Fin grid0.N, _)

/-! ## Each block read at an element is the array read at the element's place -/

theorem blk0_read (c : Dev nD) (t : Fin cfg0.N) (p : Fin 256) (k : Fin 2048) (b : Fin 8192) (hb : b.val = t.val / 16 * 256 + p.val) :
    iblk m c 0 t (ix2 p k) = V m c main_arg0 (ix2 b k) := by
  obtain ⟨e00, e01, -⟩ := idx_facts t
  show V m c main_arg0 (((cfg0.win 0).blk t).view.emb (ix2 p k)) = V m c main_arg0 (ix2 b k)
  refine congrArg _ (funext fun a => Fin.ext ?_)
  match a with
  | ⟨0, _⟩ => show win0_0.index t (0 : Fin 2) * 256 + 1 * p.val = b.val; omega
  | ⟨1, _⟩ => show win0_0.index t (1 : Fin 2) * 2048 + 1 * k.val = k.val; omega

theorem blk1_read (c : Dev nD) (t : Fin cfg0.N) (q : Fin 256) (k : Fin 2048) (r : Fin 4096) (hr : r.val = t.val % 16 * 256 + q.val) :
    iblk m c 1 t (ix2 q k) = V m c main_arg2 (ix2 r k) := by
  obtain ⟨-, -, e10, e11, -⟩ := idx_facts t
  show V m c main_arg2 (((cfg0.win 1).blk t).view.emb (ix2 q k)) = V m c main_arg2 (ix2 r k)
  refine congrArg _ (funext fun a => Fin.ext ?_)
  match a with
  | ⟨0, _⟩ => show win0_1.index t (0 : Fin 2) * 256 + 1 * q.val = r.val; omega
  | ⟨1, _⟩ => show win0_1.index t (1 : Fin 2) * 2048 + 1 * k.val = k.val; omega

theorem blk2_read (c : Dev nD) (t : Fin cfg0.N) (p : Fin 256) (k : Fin 4096) (b : Fin 8192) (hb : b.val = t.val / 16 * 256 + p.val) :
    iblk m c 2 t (ix2 p k) = V m c main_arg1 (ix2 b k) := by
  obtain ⟨-, -, -, -, e20, e21, -⟩ := idx_facts t
  show V m c main_arg1 (((cfg0.win 2).blk t).view.emb (ix2 p k)) = V m c main_arg1 (ix2 b k)
  refine congrArg _ (funext fun a => Fin.ext ?_)
  match a with
  | ⟨0, _⟩ => show win0_2.index t (0 : Fin 2) * 256 + 1 * p.val = b.val; omega
  | ⟨1, _⟩ => show win0_2.index t (1 : Fin 2) * 4096 + 1 * k.val = k.val; omega

theorem blk3_read (c : Dev nD) (t : Fin cfg0.N) (q : Fin 256) (k : Fin 4096) (r : Fin 4096) (hr : r.val = t.val % 16 * 256 + q.val) :
    iblk m c 3 t (ix2 q k) = V m c main_arg3 (ix2 r k) := by
  obtain ⟨-, -, -, -, -, -, e30, e31, -⟩ := idx_facts t
  show V m c main_arg3 (((cfg0.win 3).blk t).view.emb (ix2 q k)) = V m c main_arg3 (ix2 r k)
  refine congrArg _ (funext fun a => Fin.ext ?_)
  match a with
  | ⟨0, _⟩ => show win0_3.index t (0 : Fin 2) * 256 + 1 * q.val = r.val; omega
  | ⟨1, _⟩ => show win0_3.index t (1 : Fin 2) * 4096 + 1 * k.val = k.val; omega

theorem blk4_read (c : Dev nD) (t : Fin cfg0.N) (p q : Fin 256) (b : Fin 8192) (r : Fin 4096)
    (hb : b.val = t.val / 16 * 256 + p.val) (hr : r.val = t.val % 16 * 256 + q.val) :
    iblk m c 4 t (ix2 p q) = V m c main_arg1 (ix2 b r) := by
  obtain ⟨-, -, -, -, -, -, -, -, e40, e41, -⟩ := idx_facts t
  show V m c main_arg1 (((cfg0.win 4).blk t).view.emb (ix2 p q)) = V m c main_arg1 (ix2 b r)
  refine congrArg _ (funext fun a => Fin.ext ?_)
  match a with
  | ⟨0, _⟩ => show win0_4.index t (0 : Fin 2) * 256 + 1 * p.val = b.val; omega
  | ⟨1, _⟩ => show win0_4.index t (1 : Fin 2) * 256 + 1 * q.val = r.val; omega

/-- The place in the result array of element (p, q) of the tile point t writes. -/
theorem blk5_emb (t : Fin cfg0.N) (p q : Fin 256) (b : Fin 8192) (r : Fin 4096)
    (hb : b.val = t.val / 16 * 256 + p.val) (hr : r.val = t.val % 16 * 256 + q.val) :
    ((cfg0.win 5).blk t).view.emb (ix2 p q) = ix2 b r := by
  obtain ⟨-, -, -, -, -, -, -, -, -, -, e50, e51⟩ := idx_facts t
  refine funext fun a => Fin.ext ?_
  match a with
  | ⟨0, _⟩ => show win0_5.index t (0 : Fin 2) * 256 + 1 * p.val = b.val; omega
  | ⟨1, _⟩ => show win0_5.index t (1 : Fin 2) * 256 + 1 * q.val = r.val; omega

/-! ## What a point writes back -/

/-- Point t writes back tile t of the blended state of the four argument arrays. -/
theorem flushed_eq (c : Dev nD) (t : Fin cfg0.N) :
    (dats m 0 c).flushed 5 t = ((cfg0.win 5).blk t).view.read (Elt Ideal)
      (Cert.Blend.state (V m c main_arg0) (V m c main_arg1) (V m c main_arg2) (V m c main_arg3)) := by
  show (cfg0.win 5).cut (grid0.coords t) ((dats m 0 c).after 5 t) = _
  rw [after0_5]
  unfold tileOut
  rw [View.canon_unit_zero hz]
  simp only [View.ld_unit_zero (S := S256x2048) hz, View.ld_unit_zero (S := S256x4096) hz, View.ld_unit_zero (S := S256x256) hz]
  funext j
  obtain ⟨p, q, rfl⟩ : ∃ (p q : Fin 256), j = ix2 p q := ⟨j 0, j 1, eq_ix2 j⟩
  have ht : t.val < 512 := lt_of_lt_of_eq t.isLt N_0
  have hp : p.val < 256 := p.isLt
  have hq : q.val < 256 := q.isLt
  let b : Fin 8192 := ⟨t.val / 16 * 256 + p.val, by omega⟩
  let r : Fin 4096 := ⟨t.val % 16 * 256 + q.val, by omega⟩
  refine (pay_at (iblk m c 0 t) (iblk m c 1 t) (iblk m c 2 t) (iblk m c 3 t) (iblk m c 4 t) p q).trans ?_
  show _ = Cert.Blend.state (V m c main_arg0) (V m c main_arg1) (V m c main_arg2) (V m c main_arg3) (((cfg0.win 5).blk t).view.emb (ix2 p q))
  rw [blk5_emb t p q b r rfl rfl, Cert.Blend.state_apply, blk4_read m c t p q b r rfl rfl]
  unfold Cert.Blend.stateAt
  refine congrArg₂ (· + ·) rfl (congrArg₂ (· * ·) rfl (congrArg Ideal.tanh (congrArg₂ (· + ·)
    (Finset.sum_congr rfl fun k _ => ?_) (Finset.sum_congr rfl fun k _ => ?_))))
  · rw [blk0_read m c t p k b rfl, blk1_read m c t q k r rfl]
  · rw [blk2_read m c t p k b rfl, blk3_read m c t q k r rfl]

/-! ## The tiles cover the array -/

theorem mem_blk (t : Fin cfg0.N) (i : S8192x4096.Idx) :
    i ∈ ((cfg0.win 5).blk t).view.set ↔ ∀ a : Fin 2, win0_5.index t a * S256x256.size a ≤ (i a).val ∧ (i a).val < win0_5.index t a * S256x256.size a + S256x256.size a := by
  show i ∈ ((View.whole main_v0).slice (win0_5.rect t)).set ↔ _
  rw [View.set_slice_whole, Rect.mem_set_unit]
  exact Iff.rfl

/-- Element (b, r) of the array lies in the tile of point 16 (b / 256) + r / 256. -/
theorem cover (i : S8192x4096.Idx) : ∃ t : Fin cfg0.N, (cfg0.win 5).flush t = true ∧ i ∈ ((cfg0.win 5).blk t).view.set := by
  have hi0 : (i 0).val < 8192 := (i 0).isLt
  have hi1 : (i 1).val < 4096 := (i 1).isLt
  let t : Fin cfg0.N := ⟨(i 0).val / 256 * 16 + (i 1).val / 256, lt_of_lt_of_eq (by omega) N_0.symm⟩
  have htv : t.val = (i 0).val / 256 * 16 + (i 1).val / 256 := rfl
  obtain ⟨-, -, -, -, -, -, -, -, -, -, e50, e51⟩ := idx_facts t
  refine ⟨t, flush0_5 t, ?_⟩
  rw [mem_blk]
  intro a
  match a with
  | ⟨0, _⟩ => show win0_5.index t (0 : Fin 2) * 256 ≤ (i 0).val ∧ (i 0).val < win0_5.index t (0 : Fin 2) * 256 + 256; omega
  | ⟨1, _⟩ => show win0_5.index t (1 : Fin 2) * 256 ≤ (i 1).val ∧ (i 1).val < win0_5.index t (1 : Fin 2) * 256 + 256; omega

/-! ## The array after the run, and the run -/

theorem final (c : Dev nD) :
    (dats m 0 c).arrAt 5 cfg0.N = Cert.Blend.state (V m c main_arg0) (V m c main_arg1) (V m c main_arg2) (V m c main_arg3) :=
  (dats m 0 c).arrAt_eq_of_cover 5 _ (fun t _ => flushed_eq m c t) cover

/-- Every weakly fair execution of the idealized kernel program terminates with the result array at the blended state
    of the four arguments, and the arguments as launched. -/
theorem run : θ_run defs (onTc (τ := τ) (main (F := Ideal))) ⟨m, fun _ => 0, ρ⟩ fun r => ∀ c : Dev nD,
      r.2.mem ((c.tc : Thread nD τ).loc main_v0)
        = Cert.Blend.state (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h c).1 5).trans (final m c),
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).1 1).trans (((dats m 0 c).arrAt_in 1 rfl _).trans ((A_eq m c 1).trans (V_main_arg2 m c))),
      ((h c).1 3).trans (((dats m 0 c).arrAt_in 3 rfl _).trans ((A_eq m c 3).trans (V_main_arg3 m c)))⟩)
    (run_main m ρ)

end Cert.KernelIdeal.Final

end
-- ==== Proof.RefValue.lean ====
/-
  The reference's result is the blended state, index by index.

  Read one operation at a time, the reference's last stage at (b, r) is c7 * s(b, r) + c3 * tanh(u + v) with u the
  product of the inputs and the input weights contracted over the 2048 features and v the product of the previous state
  and the reservoir weights contracted over the 4096 units: the blended state's own formula.
-/
import proofs.«115431_j20993800143482_1_alg».proof.Proof.Gen.ReferenceIdeal.Read
import proofs.«115431_j20993800143482_1_alg».proof.Proof.Blend

noncomputable section

namespace Cert.ReferenceIdeal.RefValue

open Cert.ReferenceIdeal Cert.ReferenceIdeal.Gen Cert.ReferenceIdeal.Read Idealize.ShloMosaic Idealize.ShloMosaic.ValueIdx

theorem lidx0_eq (i : S8192x4096.Idx) (k : Fin 2048) : lidx_main_v0 i k = ix2 (i 0) k :=
  funext fun a => Fin.ext (by match a with | ⟨0, _⟩ => rfl | ⟨1, _⟩ => rfl)
theorem ridx0_eq (i : S8192x4096.Idx) (k : Fin 2048) : ridx_main_v0 i k = ix2 (i 1) k :=
  funext fun a => Fin.ext (by match a with | ⟨0, _⟩ => rfl | ⟨1, _⟩ => rfl)
theorem lidx1_eq (i : S8192x4096.Idx) (k : Fin 4096) : lidx_main_v1 i k = ix2 (i 0) k :=
  funext fun a => Fin.ext (by match a with | ⟨0, _⟩ => rfl | ⟨1, _⟩ => rfl)
theorem ridx1_eq (i : S8192x4096.Idx) (k : Fin 4096) : ridx_main_v1 i k = ix2 (i 1) k :=
  funext fun a => Fin.ext (by match a with | ⟨0, _⟩ => rfl | ⟨1, _⟩ => rfl)

/-- The reference's last stage is the blended state of its four arguments. -/
theorem result_eq (x0 : (⟨S8192x2048, .f32⟩ : BufTy).Contents (Elt Ideal)) (x1 : (⟨S8192x4096, .f32⟩ : BufTy).Contents (Elt Ideal))
    (x2 : (⟨S4096x2048, .f32⟩ : BufTy).Contents (Elt Ideal)) (x3 : (⟨S4096x4096, .f32⟩ : BufTy).Contents (Elt Ideal)) :
    val_main_v8 (F := Ideal) x0 x1 x2 x3 = Cert.Blend.state x0 x1 x2 x3 := by
  funext i
  rw [val_main_v8_apply, val_main_v3_apply, val_main_v2_apply, val_main_cst_apply, val_main_v7_apply, val_main_v6_apply,
    val_main_cst_0_apply, val_main_v5_apply, val_main_v4_apply, val_main_v0_apply, val_main_v1_apply]
  simp only [lidx0_eq, ridx0_eq, lidx1_eq, ridx1_eq]
  obtain ⟨b, r, rfl⟩ : ∃ (b : Fin 8192) (r : Fin 4096), i = ix2 b r := ⟨i 0, i 1, eq_ix2 i⟩
  rfl

end Cert.ReferenceIdeal.RefValue

end
-- ==== Proof.lean ====
/-
  The certificate: the pipelined kernel and the plain reference compute one state update.

  Both programs compute, for inputs x, previous state s, input weights a and reservoir weights w,
      state(b, r) = c7 * s(b, r) + c3 * tanh( sum_i x(b, i) a(r, i) + sum_q s(b, q) w(r, q) )
  with the same two binary32 constants c7 and c3.  On the extended reals the kernel's change of format before its
  matrix products is the identity and each product into a zero accumulator is the plain sum over the contracted axis,
  as the reference's is; the two transcendental functions are one function; so no law beyond rewriting each side to this
  formula is needed, and the precondition is never opened.

  The kernel runs on a 32 x 16 grid of 256 x 256 tiles.  It reads the previous state through two windows (a row band
  for the product, a tile for the blend), so that array's buffer is shared between them; each program's run leaves
  every argument untouched because no window writes one.
-/
import proofs.«115431_j20993800143482_1_alg».proof.Defs
import proofs.«115431_j20993800143482_1_alg».proof.Proof.Gen.Kernel
import proofs.«115431_j20993800143482_1_alg».proof.Proof.Gen.KernelIdeal
import proofs.«115431_j20993800143482_1_alg».proof.Proof.Gen.ReferenceIdeal
import proofs.«115431_j20993800143482_1_alg».proof.Proof.Gen.Pre_finite_inputs
import proofs.«115431_j20993800143482_1_alg».proof.Proof.FrameK
import proofs.«115431_j20993800143482_1_alg».proof.Proof.FrameKI
import proofs.«115431_j20993800143482_1_alg».proof.Proof.KernelFinal
import proofs.«115431_j20993800143482_1_alg».proof.Proof.RefValue
import Idealize.ShloMosaic.Adequacy
import Idealize.ShloMosaic.Init

noncomputable section

namespace Cert.Proof

open Idealize.ShloMosaic Idealize.SL.Sem

/-- The word-level kernel program runs and leaves its arguments unchanged. -/
theorem frame_k : @Cert.frame_Kernel Cert.Kernel.Gen.facts Cert.Pre_finite_inputs.Gen.facts :=
  fun m ρ _ => Cert.Kernel.Frame.frame m ρ

/-- So does the idealized kernel program. -/
theorem frame_ki : @Cert.frame_KernelIdeal Cert.KernelIdeal.Gen.facts Cert.Pre_finite_inputs.Gen.facts :=
  fun m ρ _ => Cert.KernelIdeal.Frame.frame m ρ

/-- The reference is host operations only: its run, the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- From memories that agree on the four arguments both programs end with the blended state of those arguments. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨_, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
